-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x128 : Shape := ⟨2, ![64, 128]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  main_v18

def fn {F : FTy → Type} [FloatOps F] (main_arg0 : FVec F S100000x64 .f32) (main_arg1 : IVec S1600000 32) (main_arg2 : IVec S1600000 32) (main_arg3 : FVec F S1600000 .f32) (main_arg4 : FVec F S64x128 .f32) (main_arg5 : FVec F S128x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x128 : Shape := ⟨2, ![64, 128]⟩
abbrev S128x64 : Shape := ⟨2, ![128, 64]⟩
abbrev S1600000x1 : Shape := ⟨2, ![1600000, 1]⟩
abbrev S_ : Shape := ⟨0, ![]⟩
abbrev S1600000x64 : Shape := ⟨2, ![1600000, 64]⟩
abbrev S100000x128 : Shape := ⟨2, ![100000, 128]⟩
abbrev S10000x64 : Shape := ⟨2, ![10000, 64]⟩
abbrev S10000x128 : Shape := ⟨2, ![10000, 128]⟩
abbrev S1600000x128 : Shape := ⟨2, ![1600000, 128]⟩

abbrev nBuf : Space → Nat
  | .hbm => 40
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x128, .f32⟩
  | .hbm, ⟨5, _⟩ => ⟨S128x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x128, .f32⟩
  | .hbm, ⟨23, _⟩ => ⟨S1600000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x128_S10000x128_1_0_0_1_n_n_wf : DotDims.WF S10000x64 S64x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x128 : Shape := ⟨2, ![64, 128]⟩
abbrev S128x64 : Shape := ⟨2, ![128, 64]⟩
abbrev S1600000x1 : Shape := ⟨2, ![1600000, 1]⟩
abbrev S_ : Shape := ⟨0, ![]⟩
abbrev S1600000x64 : Shape := ⟨2, ![1600000, 64]⟩
abbrev S100000x128 : Shape := ⟨2, ![100000, 128]⟩
abbrev S1600000x128 : Shape := ⟨2, ![1600000, 128]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S64x128, .f32⟩
  | .hbm, ⟨5, _⟩ => ⟨S128x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S1600000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LibPlainProduct.lean ====
/-
  The plain product of an m×k matrix with a k×n matrix, read at an index at the exact instance, in its two
  spellings: the matrix unit's product accumulated into the zero splat (a tile of rows) and the whole-array
  product. Row r of the result reads row r of the left operand only, so a block of rows of the left operand
  gives the same block of rows of the product.
-/
import proofs.«120755_j19688130085401_1_alg».proof.Proof.LibRowLayers
import Idealize.ShloMosaic.Lib.KernelVsHost

noncomputable section

open scoped BigOperators

namespace RowLayers

open Idealize.ShloMosaic Idealize.ShloMosaic.ValueIdx

variable {m k n : ℕ}

/-- The matrix unit's plain product into a zero accumulator, at (a, b): the sum over the contracted coordinate c
    of A(a, c) · B(c, b). Adding the zero accumulator changes nothing, at the infinities either. -/
theorem matmulPlain_apply {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

variable {mb M : ℕ} {σ : Fin mb → Fin M}

/-- A vector cast to its own shape is itself, so it keeps the rows it had. -/
theorem Rows.castSelf {x : (⟨2, ![mb, k]⟩ : Shape).Idx → EReal} {X : (⟨2, ![M, k]⟩ : Shape).Idx → EReal}
    (h : (⟨2, ![mb, k]⟩ : Shape).ShapeCasts ⟨2, ![mb, k]⟩) (hx : Rows σ x X) :
    Rows σ (shapeCast ⟨2, ![mb, k]⟩ x h) X := by
  rw [shapeCast_self]; exact hx

/-- The product of a block of rows with a matrix is the same block of rows of the product of the whole array
    with that matrix: entry (p, j) of the first is the sum over c of x(p, c) · w(c, j), and x(p, c) is
    X(σ p, c). -/
theorem Rows.product {φ₁ φ₂ : FTy} {x : FVec Ideal ⟨2, ![mb, k]⟩ φ₁} {X : FVec Ideal ⟨2, ![M, k]⟩ φ₁}
    (hx : Rows σ x X) (w : FVec Ideal ⟨2, ![k, n]⟩ φ₂) :
    Rows σ (matmul (DotDims.plain mb k n) none x w (constant ⟨2, ![mb, n]⟩ .f32 0x00000000#32))
      (Host.dotGeneral (DotDims.plain M k n) none X w) := fun p j => by
  rw [matmulPlain_apply, StackMember.dotGeneral_plain_apply]
  exact Finset.sum_congr rfl fun c _ => by rw [hx p c]

end RowLayers

end
-- ==== Proof.Layer1Value.lean ====
/-
  The first dense layer (the region that multiplies the aggregated input features by the first weight matrix and
  keeps the positive part).

  Grid point t loads rows 10000·t … 10000·t + 9999 of the 100000 × 64 array the region finds, loads the whole
  64 × 128 weight matrix, multiplies them on the matrix unit into a zero accumulator, takes the larger of each entry
  and zero, and writes the 10000 × 128 block back as rows 10000·t … of the result. Row r of the product reads row r
  of the left operand only and the positive part acts entry by entry, so each written block is that block of rows of
  max(Z · W, 0) computed on the WHOLE array; the ten blocks tile the result, which therefore ends as max(Z · W, 0).
-/
import proofs.«120755_j19688130085401_1_alg».proof.Proof.Gen.KernelIdeal.Frame
import proofs.«120755_j19688130085401_1_alg».proof.Proof.LibPlainProduct

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)
open RowLayers

variable (V : (c : Dev nD) → (b : Ref sig .tc) → Buf (Elt Ideal) ((c : Thread nD τ).loc b))

/-- max(Z · W, 0) on the whole 100000 × 64 array Z and the 64 × 128 weight matrix W, as the host spells it: the
    plain product, then the larger of each entry and a broadcast zero. -/
abbrev wholeLayer (Z : Vec Ideal S100000x64 .f32) (W : Vec Ideal S64x128 .f32) : Vec Ideal S100000x128 .f32 :=
  maximumf (Host.dotGeneral (F := Ideal) (φ₁ := .f32) (φ₂ := .f32) (DotDims.plain 100000 64 128) none Z W)
    (broadcastInDim S100000x128 ![] (by decide) (constant (F := Ideal) S_ .f32 0x00000000#32))

theorem offsets_zero : (![0, 0] : Fin 2 → Nat) = fun _ => 0 := funext fun a => by fin_cases a <;> rfl

/-- The printed index maps over the ten grid points: the left operand's and the result's block index is (t, 0),
    the weight matrix's is (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 10000·t + p of the whole array. -/
def rowOf (t : Fin cfg0.N) (p : Fin 10000) : Fin 100000 :=
  ⟨t.val * 10000 + p.val, by have ht : t.val < 10 := t.isLt; have hp := p.isLt; omega⟩

/-- The left operand's block at point t is rows 10000·t … of the array the region finds. -/
theorem left_rows (c : Dev nD) (t : Fin cfg0.N) :
    Rows (rowOf t) (iblk0 V c 0 t : Vec Ideal S10000x64 .f32) (V c main_v12 : Vec Ideal S100000x64 .f32) := fun p q => by
  obtain ⟨e0, e1, -, -, -, -⟩ := block_indices t
  show V c main_v12 (((cfg0.win 0).blk t).view.emb (ix2 p q)) = V c main_v12 (ix2 (rowOf t p) q)
  refine congrArg (V c main_v12) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * q.val = q.val; omega

/-- The weight matrix's block at every point is the whole weight matrix. -/
theorem right_whole (c : Dev nD) (t : Fin cfg0.N) :
    (iblk0 V c 1 t : Vec Ideal S64x128 .f32) = (V c main_arg4 : Vec Ideal S64x128 .f32) := by
  obtain ⟨-, -, e2, e3, -, -⟩ := block_indices t
  funext y
  show V c main_arg4 (((cfg0.win 1).blk t).view.emb y) = V c main_arg4 y
  refine congrArg (V c main_arg4) (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The printed contraction record is the plain product's. -/
theorem dims_plain : dot_S10000x64_S64x128_S10000x128_1_0_0_1_n_n = DotDims.plain 10000 64 128 := rfl

/-- What the body stores, from a block of rows x0 of Z and the matrix x1: the same rows of max(Z · x1, 0) on the
    whole array (the narrowing of the operands' format is the identity on extended reals; the splat of the scalar
    zero is the host's broadcast of the constant zero). -/
theorem stored_rows (σ : Fin 10000 → Fin 100000) (x0 : Vec Ideal S10000x64 .f32) (x1 : Vec Ideal S64x128 .f32)
    (Z : Vec Ideal S100000x64 .f32) (hx : Rows σ x0 Z) :
    Rows σ (k0_pay1 x0 x1) (wholeLayer Z x1) := by
  unfold k0_pay1
  rw [dims_plain]
  exact Rows.relu (by decide) (Rows.product (Rows.truncf (ψ := .bf16) (by decide) (Rows.castSelf (by decide) hx)) x1)

/-- WHAT POINT t WRITES BACK is block t of max(Z · W, 0) on the whole array. -/
theorem flushed_eq (c : Dev nD) (t : Fin cfg0.N) :
    (dat0 V c).flushed 2 t = ((cfg0.win 2).blk t).view.read (Elt Ideal) (wholeLayer (V c main_v12) (V c main_arg4)) := by
  show (cfg0.win 2).cut (grid0.coords t) ((dat0 V c).after 2 t) = _
  rw [after0_2]
  unfold out0_2
  rw [View.canon_unit_zero offsets_zero]
  simp only [View.ld_unit_zero (S := S10000x64) offsets_zero, View.ld_unit_zero (S := S64x128) offsets_zero]
  obtain ⟨-, -, -, -, e4, e5⟩ := block_indices t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = wholeLayer (V c main_v12) (V c main_arg4) (((cfg0.win 2).blk t).view.emb (ix2 p q))
  have e : ((cfg0.win 2).blk t).view.emb (ix2 p q) = (ix2 (rowOf t p) q : S100000x128.Idx) := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [e]
  refine (stored_rows (rowOf t) (iblk0 V c 0 t) (iblk0 V c 1 t) (V c main_v12) (left_rows V c t) p q).trans ?_
  rw [right_whole V c t]

/-- An index of the result is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v13).slice (win0_2.rect t)).set ↔ _
  rw [View.set_slice_whole, Rect.mem_set_unit]
  exact Iff.rfl

/-- Row r of the result is written by point r / 10000: the ten blocks tile the result. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 10000 < cfg0.N := by show (i 0).val / 10000 < 10; omega
  obtain ⟨-, -, -, -, e4, e5⟩ := block_indices ⟨(i 0).val / 10000, ht⟩
  refine ⟨⟨(i 0).val / 10000, ht⟩, flush0_2 _, ?_⟩
  rw [mem_block]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e5]; omega

/-- THE RESULT ARRAY after the region: max(Z · W, 0) of the whole left array and the weight matrix as the region
    finds them. -/
theorem final (c : Dev nD) : (dat0 V c).arrAt 2 cfg0.N = wholeLayer (V c main_v12) (V c main_arg4) :=
  (dat0 V c).arrAt_eq_of_cover 2 _ (fun t _ => flushed_eq V c t) cover

end Cert.KernelIdeal.Layer1

end
-- ==== Proof.Layer2Value.lean ====
/-
  The second dense layer (the region that multiplies the twice-aggregated features by the second weight matrix).

  Grid point t loads rows 10000·t … 10000·t + 9999 of the 100000 × 128 array the region finds, loads the whole
  128 × 64 weight matrix, multiplies them on the matrix unit into a zero accumulator and writes the 10000 × 64
  product back as rows 10000·t … of the result. Row r of a product reads row r of the left operand only, so each
  written block is that block of rows of the product of the WHOLE array with the weight matrix; the ten blocks
  tile the result, which therefore ends as that whole-array product.
-/
import proofs.«120755_j19688130085401_1_alg».proof.Proof.Gen.KernelIdeal.Frame
import proofs.«120755_j19688130085401_1_alg».proof.Proof.LibPlainProduct

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)
open RowLayers

variable (V : (c : Dev nD) → (b : Ref sig .tc) → Buf (Elt Ideal) ((c : Thread nD τ).loc b))

/-- The product of the whole 100000 × 128 array with the 128 × 64 weight matrix, as the host spells it. -/
abbrev wholeProduct (Z : Vec Ideal S100000x128 .f32) (W : Vec Ideal S128x64 .f32) : Vec Ideal S100000x64 .f32 :=
  Host.dotGeneral (F := Ideal) (φ₁ := .f32) (φ₂ := .f32) (DotDims.plain 100000 128 64) none Z W

theorem offsets_zero : (![0, 0] : Fin 2 → Nat) = fun _ => 0 := funext fun a => by fin_cases a <;> rfl

/-- The printed index maps over the ten grid points: the left operand's and the result's block index is (t, 0),
    the weight matrix's is (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of block t is row 10000·t + p of the whole array. -/
def rowOf (t : Fin cfg1.N) (p : Fin 10000) : Fin 100000 :=
  ⟨t.val * 10000 + p.val, by have ht : t.val < 10 := t.isLt; have hp := p.isLt; omega⟩

/-- The left operand's block at point t is rows 10000·t … of the array the region finds. -/
theorem left_rows (c : Dev nD) (t : Fin cfg1.N) :
    Rows (rowOf t) (iblk1 V c 0 t : Vec Ideal S10000x128 .f32) (V c main_v26 : Vec Ideal S100000x128 .f32) := fun p q => by
  obtain ⟨e0, e1, -, -, -, -⟩ := block_indices t
  show V c main_v26 (((cfg1.win 0).blk t).view.emb (ix2 p q)) = V c main_v26 (ix2 (rowOf t p) q)
  refine congrArg (V c main_v26) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * q.val = q.val; omega

/-- The weight matrix's block at every point is the whole weight matrix. -/
theorem right_whole (c : Dev nD) (t : Fin cfg1.N) :
    (iblk1 V c 1 t : Vec Ideal S128x64 .f32) = (V c main_arg5 : Vec Ideal S128x64 .f32) := by
  obtain ⟨-, -, e2, e3, -, -⟩ := block_indices t
  funext y
  show V c main_arg5 (((cfg1.win 1).blk t).view.emb y) = V c main_arg5 y
  refine congrArg (V c main_arg5) (funext fun a => Fin.ext ?_)
  match a with
  | ⟨0, _⟩ => show win1_1.index t (0 : Fin 2) * 128 + 1 * (y 0).val = (y 0).val; omega
  | ⟨1, _⟩ => show win1_1.index t (1 : Fin 2) * 64 + 1 * (y 1).val = (y 1).val; omega

/-- The printed contraction record is the plain product's. -/
theorem dims_plain : dot_S10000x128_S128x64_S10000x64_1_0_0_1_n_n = DotDims.plain 10000 128 64 := rfl

/-- What the body stores, from a block of rows x0 of Z and the matrix x1: the same rows of the whole-array product
    Z · x1 (the narrowing of the operands' format is the identity on extended reals). -/
theorem stored_rows (σ : Fin 10000 → Fin 100000) (x0 : Vec Ideal S10000x128 .f32) (x1 : Vec Ideal S128x64 .f32)
    (Z : Vec Ideal S100000x128 .f32) (hx : Rows σ x0 Z) :
    Rows σ (k1_pay1 x0 x1) (wholeProduct Z x1) := by
  unfold k1_pay1
  rw [dims_plain]
  exact Rows.product (Rows.truncf (ψ := .bf16) (by decide) (Rows.castSelf (by decide) hx)) x1

/-- WHAT POINT t WRITES BACK is block t of the whole-array product. -/
theorem flushed_eq (c : Dev nD) (t : Fin cfg1.N) :
    (dat1 V c).flushed 2 t = ((cfg1.win 2).blk t).view.read (Elt Ideal)
      (wholeProduct (V c main_v26) (V c main_arg5)) := by
  show (cfg1.win 2).cut (grid1.coords t) ((dat1 V c).after 2 t) = _
  rw [after1_2]
  unfold out1_2
  rw [View.canon_unit_zero offsets_zero]
  simp only [View.ld_unit_zero (S := S10000x128) offsets_zero, View.ld_unit_zero (S := S128x64) offsets_zero]
  obtain ⟨-, -, -, -, e4, e5⟩ := block_indices t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q)
    = wholeProduct (V c main_v26) (V c main_arg5)
        (((cfg1.win 2).blk t).view.emb (ix2 p q))
  have e : ((cfg1.win 2).blk t).view.emb (ix2 p q) = (ix2 (rowOf t p) q : S100000x64.Idx) := by
    funext a; apply Fin.ext
    match a with
    | ⟨0, _⟩ => show win1_2.index t (0 : Fin 2) * 10000 + 1 * p.val = t.val * 10000 + p.val; omega
    | ⟨1, _⟩ => show win1_2.index t (1 : Fin 2) * 64 + 1 * q.val = q.val; omega
  rw [e]
  refine (stored_rows (rowOf t) (iblk1 V c 0 t) (iblk1 V c 1 t) (V c main_v26) (left_rows V c t) p q).trans ?_
  rw [right_whole V c t]

/-- An index of the result is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v27).slice (win1_2.rect t)).set ↔ _
  rw [View.set_slice_whole, Rect.mem_set_unit]
  exact Iff.rfl

/-- Row r of the result is written by point r / 10000: the ten blocks tile the result. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 10000 < cfg1.N := by show (i 0).val / 10000 < 10; omega
  obtain ⟨-, -, -, -, e4, e5⟩ := block_indices ⟨(i 0).val / 10000, ht⟩
  refine ⟨⟨(i 0).val / 10000, ht⟩, flush1_2 _, ?_⟩
  rw [mem_block]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val
      ∧ (i 1).val < win1_2.index ⟨(i 0).val / 10000, ht⟩ (1 : Fin 2) * 64 + 64
    rw [e5]; omega

/-- THE RESULT ARRAY after the region: the product of the whole left array, as the region finds it, with the weight
    matrix as the region finds it. -/
theorem final (c : Dev nD) :
    (dat1 V c).arrAt 2 cfg1.N
      = wholeProduct (V c main_v26) (V c main_arg5) :=
  (dat1 V c).arrAt_eq_of_cover 2 _ (fun t _ => flushed_eq V c t) cover

end Cert.KernelIdeal.Layer2

end
-- ==== Proof.KernelNetwork.lean ====
/-
  The kernel program's result as one function of its six arguments.

  The program is two graph-convolution layers. With A the sparse matrix the edge lists give
  (A[i, j] = the sum of val[e] over the edges e with row[e] = i and col[e] = j), the host computes the aggregation
  z = A · x by a gather of the rows x[col[e]], a product with val[e] and a scatter-add into the rows row[e]; a dense
  layer then multiplies by a weight matrix on the matrix unit, block of rows by block of rows:

      result = (A · max((A · features) · W1, 0)) · W3.

  The run passes four boundaries: after the first aggregation (host), after the first dense layer (a region), after
  the second aggregation (host), after the second dense layer (a region). Each boundary's contents are read off the
  one before: a host stretch by its operations' composed term, a region by the whole-array form of what its ten grid
  points write back.
-/
import proofs.«120755_j19688130085401_1_alg».proof.Proof.Gen.KernelIdeal.Frame
import proofs.«120755_j19688130085401_1_alg».proof.Proof.KernelRun
import proofs.«120755_j19688130085401_1_alg».proof.Proof.Layer1Value
import proofs.«120755_j19688130085401_1_alg».proof.Proof.Layer2Value
import Idealize.ShloMosaic.Lib.StableHlo.Run
import Idealize.ShloMosaic.PureOps.Ideal

set_option maxRecDepth 16384

noncomputable section

namespace Cert.KernelIdeal.Network

open Cert.KernelIdeal Cert.KernelIdeal.Gen
open Idealize.ShloMosaic Idealize.ShloMosaic.TcCoe Idealize.SL.Sem Idealize.ShloMosaic.StableHlo

/-! ## The aggregation over the edges, as the host spells it -/

section Spec

variable {F : FTy → Type} [FloatOps F]

/-- The source-node indices as a column, a negative index moved up by the number of nodes first. -/
def sourceColumn (col : Vec F S1600000 .i32) : Vec F S1600000x1 .i32 :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- z[i, ·] = the sum over the edges e with row[e] = i of val[e] · x[col[e], ·], on 64 features: the rows of x
    gathered at the edges' source nodes, scaled by the edges' values, added into the zero array at the edges'
    target nodes. -/
def aggregate64 (x : Vec F S100000x64 .f32) (row col : Vec F S1600000 .i32) (val : Vec F S1600000 .f32) :
    Vec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf (broadcastInDim S1600000x64 ![0, 1] bcast_S1600000x1_S1600000x64_0_1
        (broadcastInDim S1600000x1 ![0] bcast_S1600000_S1600000x1_0 val))
      (Host.gather gather_S100000x64_S1600000x1_S1600000x64_1_0_n_n_0_1_164 x (sourceColumn col)))

/-- The same aggregation on 128 features. -/
def aggregate128 (x : Vec F S100000x128 .f32) (row col : Vec F S1600000 .i32) (val : Vec F S1600000 .f32) :
    Vec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 x (sourceColumn col)))

end Spec

/-- The two layers: (A · max((A · features) · W1, 0)) · W3. -/
def network (features : Vec Ideal S100000x64 .f32) (row col : Vec Ideal S1600000 .i32) (val : Vec Ideal S1600000 .f32)
    (w1 : Vec Ideal S64x128 .f32) (w3 : Vec Ideal S128x64 .f32) : Vec Ideal S100000x64 .f32 :=
  Layer2.wholeProduct (aggregate128 (Layer1.wholeLayer (aggregate64 features row col val) w1) row col val) w3

/-! ## The boundaries' contents -/

variable (m : (ℓ : Loc nD τ sig) → Buf (Elt Ideal) ℓ) (ρ : Dev nD → PrngReg)

/-- Entering the first region, its left operand holds the aggregated input features. -/
theorem entry1_left (c : Dev nD) :
    V1 m ρ c main_v12 = aggregate64 (m ((c : Thread nD τ).loc main_arg0)) (m ((c : Thread nD τ).loc main_arg1))
      (m ((c : Thread nD τ).loc main_arg2)) (m ((c : Thread nD τ).loc main_arg3)) := by
  show StableHlo.after hostOps0 (W0 m ρ c) (Proc.devRef .tc main_v12) = _
  after_results
  rfl

/-- and its right operand the first weight matrix, which no host operation writes. -/
theorem entry1_right (c : Dev nD) : V1 m ρ c main_arg4 = m ((c : Thread nD τ).loc main_arg4) := by
  show StableHlo.after hostOps0 (W0 m ρ c) (Proc.devRef .tc main_arg4) = _
  after_results

/-- The edge lists and the edge values are written by no host operation of the first stretch and are no array of the
    first region: leaving that region they are as launched. -/
theorem exit1_row (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
theorem exit1_col (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results
theorem exit1_val (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  after_results
theorem exit1_w3 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-- Leaving the first region, its result array holds the first layer's hidden features. -/
theorem exit1_hidden (c : Dev nD) :
    W2 m ρ c (Proc.devRef .tc main_v13)
      = Layer1.wholeLayer (aggregate64 (m ((c : Thread nD τ).loc main_arg0)) (m ((c : Thread nD τ).loc main_arg1))
          (m ((c : Thread nD τ).loc main_arg2)) (m ((c : Thread nD τ).loc main_arg3))) (m ((c : Thread nD τ).loc main_arg4)) := by
  refine (W2_arr m ρ c 2).trans ((Layer1.final (V1 m ρ) c).trans ?_)
  rw [entry1_left m ρ c, entry1_right m ρ c]

/-- Entering the second region, its left operand holds the aggregated hidden features, -/
theorem entry2_left (c : Dev nD) :
    V3 m ρ c main_v26
      = aggregate128 (Layer1.wholeLayer (aggregate64 (m ((c : Thread nD τ).loc main_arg0)) (m ((c : Thread nD τ).loc main_arg1))
          (m ((c : Thread nD τ).loc main_arg2)) (m ((c : Thread nD τ).loc main_arg3))) (m ((c : Thread nD τ).loc main_arg4)))
        (m ((c : Thread nD τ).loc main_arg1)) (m ((c : Thread nD τ).loc main_arg2)) (m ((c : Thread nD τ).loc main_arg3)) := by
  generalize hX : aggregate128 (Layer1.wholeLayer (aggregate64 (m ((c : Thread nD τ).loc main_arg0)) (m ((c : Thread nD τ).loc main_arg1))
      (m ((c : Thread nD τ).loc main_arg2)) (m ((c : Thread nD τ).loc main_arg3))) (m ((c : Thread nD τ).loc main_arg4)))
    (m ((c : Thread nD τ).loc main_arg1)) (m ((c : Thread nD τ).loc main_arg2)) (m ((c : Thread nD τ).loc main_arg3)) = X
  show StableHlo.after hostOps1 (W2 m ρ c) (Proc.devRef .tc main_v26) = X
  after_results
  rw [exit1_row m ρ c, exit1_col m ρ c, exit1_val m ρ c, exit1_hidden m ρ c, ← hX]
  rfl

/-- and its right operand the second weight matrix. -/
theorem entry2_right (c : Dev nD) : V3 m ρ c main_arg5 = m ((c : Thread nD τ).loc main_arg5) := by
  show StableHlo.after hostOps1 (W2 m ρ c) (Proc.devRef .tc main_arg5) = _
  after_results
  exact exit1_w3 m ρ c

/-- At the last boundary the result buffer holds the two layers of the launch contents of the arguments. -/
theorem result_eq (c : Dev nD) :
    W4 m ρ c (Proc.devRef .tc main_v27)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 2).trans ((Layer2.final (V3 m ρ) c).trans ?_)
  rw [entry2_left m ρ c, entry2_right m ρ c]
  rfl

/-! ## The run, read -/

/-- Every weakly fair execution of the kernel program ends, nothing faulting, with the result buffer at the two
    layers of the arguments and the arguments as launched. -/
theorem run : θ_run defs (onTc (τ := τ) (main (F := Ideal))) ⟨m, fun _ => 0, ρ⟩ (fun r => ∀ c : Dev nD,
      r.2.mem ((c.tc : Thread nD τ).loc main_v27)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.Run.run_named m ρ)

end Cert.KernelIdeal.Network

end
-- ==== Proof.lean ====
/-
  Two graph-convolution layers, result = (A · max((A · features) · W1, 0)) · W3, where A is the sparse matrix the
  edge lists give and A · x is computed on the host by gather, scale and scatter-add.

  The kernel program and the reference run the SAME host operations for the two aggregations; they differ only in the
  dense layers, which the kernel program computes on the matrix unit ten blocks of 10000 rows at a time, its operands
  narrowed to a shorter float format first, into a zero accumulator, and the reference as one whole-array product.
  On extended reals the narrowing is the identity and adding the zero accumulator changes nothing, and row r of a
  product reads row r of the left operand only; so the blocks the grid points write back are the blocks of the
  whole-array layer, and the two programs end with the same array. No law of arithmetic beyond 0 + x = x is used, so
  the finiteness of the inputs is never opened.

  The kernel program's result is read off its run boundary by boundary (Proof/KernelNetwork.lean), the reference's
  off its generated run; that the two terms are one function is a comparison of the two spellings, operation by
  operation.
-/
import proofs.«120755_j19688130085401_1_alg».proof.Defs
import proofs.«120755_j19688130085401_1_alg».proof.Proof.Gen.Kernel
import proofs.«120755_j19688130085401_1_alg».proof.Proof.Gen.Kernel.Skeleton
import proofs.«120755_j19688130085401_1_alg».proof.Proof.Gen.Kernel.Launch
import proofs.«120755_j19688130085401_1_alg».proof.Proof.Gen.Kernel.Points
import proofs.«120755_j19688130085401_1_alg».proof.Proof.Gen.Kernel.Frame
import proofs.«120755_j19688130085401_1_alg».proof.Proof.Gen.KernelIdeal
import proofs.«120755_j19688130085401_1_alg».proof.Proof.Gen.KernelIdeal.Skeleton
import proofs.«120755_j19688130085401_1_alg».proof.Proof.Gen.KernelIdeal.Launch
import proofs.«120755_j19688130085401_1_alg».proof.Proof.Gen.KernelIdeal.Points
import proofs.«120755_j19688130085401_1_alg».proof.Proof.Gen.KernelIdeal.Frame
import proofs.«120755_j19688130085401_1_alg».proof.Proof.Gen.ReferenceIdeal
import proofs.«120755_j19688130085401_1_alg».proof.Proof.Gen.ReferenceIdeal.Run
import proofs.«120755_j19688130085401_1_alg».proof.Proof.Gen.ReferenceIdeal.Read
import proofs.«120755_j19688130085401_1_alg».proof.Proof.Gen.Pre_finite_inputs
import proofs.«120755_j19688130085401_1_alg».proof.Proof.KernelNetwork
import Idealize.ShloMosaic.Adequacy
import Idealize.ShloMosaic.Init

set_option maxRecDepth 16384

noncomputable section

namespace Cert.Proof

open Idealize.ShloMosaic Idealize.ShloMosaic.TcCoe Idealize.SL.Sem

/-- The reference's result, as a function of the six arguments, is the kernel program's two layers: the same gather,
    scale and scatter-add for each aggregation, the same plain product for each dense layer, the same larger-of-zero
    between them. -/
theorem reference_is_network (x0 : Vec Ideal Cert.ReferenceIdeal.S100000x64 .f32) (x1 x2 : Vec Ideal Cert.ReferenceIdeal.S1600000 .i32)
    (x3 : Vec Ideal Cert.ReferenceIdeal.S1600000 .f32) (x4 : Vec Ideal Cert.ReferenceIdeal.S64x128 .f32)
    (x5 : Vec Ideal Cert.ReferenceIdeal.S128x64 .f32) :
    Cert.ReferenceIdeal.Read.val_main_v28 (F := Ideal) x0 x1 x2 x3 x4 x5
      = Cert.KernelIdeal.Network.network x0 x1 x2 x3 x4 x5 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the two layers of those arguments. -/
theorem algebraic : Cert.algebraic_KernelIdeal_ReferenceIdeal := by
  intro m ρ m' ρ' _ hagree
  refine ⟨_, Cert.KernelIdeal.Network.run m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v28_eq, reference_is_network,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
